-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S1 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 72
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S1_S_ : S1.ShapeCasts S_
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_cst : Ref sig .tc := ⟨.hbm, 106, rfl⟩
abbrev main_call1_v0 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One graph-isomorphism layer on the extended reals, with no program in sight.

  Given node features `x` (50000 rows of 128), the neighbour sums `aggr` (row `d` holds the sum of `x`'s rows over the
  edges that end at `d`; how that sum is formed plays no part here, so it is a parameter) and a scalar `e`, the layer is

      h0 = (1 + e) · x + aggr
      h1 = relu (norm (h0 · W1 + b1))
      out = relu (norm (h1 · W2 + b2))

  where `norm` subtracts each column's mean over the 50000 rows, multiplies by the reciprocal square root of the column's
  biased variance plus 1e-5, then scales by `g` and shifts by `beta`, column by column.  Float words that appear in both
  programs (0, 1, 50000, 1e-5 as f32) are kept as their words: the two sides meet at the same word and it is never
  evaluated.
-/
import Idealize.ShloMosaic.Lib.ValueIdx
import Idealize.ShloMosaic.PureOps.Ideal

noncomputable section

namespace Cert.Gin

open Idealize.ShloMosaic Idealize.ShloMosaic.ValueIdx

/-- A 50000 × 128 array of extended reals. -/
abbrev Feat : Type := (⟨2, ![50000, 128]⟩ : Shape).Idx → EReal
/-- A 128 × 128 weight matrix. -/
abbrev Wt : Type := (⟨2, ![128, 128]⟩ : Shape).Idx → EReal
/-- A vector of 128 (bias, scale or shift). -/
abbrev Row : Type := (⟨1, ![128]⟩ : Shape).Idx → EReal
/-- One number per column. -/
abbrev Col : Type := Fin 128 → EReal

/-- The f32 words the layer's text holds: +0, 1, 50000 and the f32 nearest 1e-5. -/
abbrev zeroW : EReal := Ideal.ofBits .f32 0x00000000#32
abbrev oneW : EReal := Ideal.ofBits .f32 0x3F800000#32
abbrev rowsW : EReal := Ideal.ofBits .f32 0x47435000#32
abbrev epsW : EReal := Ideal.ofBits .f32 0x3727C5AC#32

/-- The self term scaled by `1 + e`, plus the neighbour sums. -/
def combine (x aggr : Feat) (e : EReal) : Feat := fun i => (oneW + e) * x i + aggr i

/-- A dense layer: entry (p, q) is row `p` of `a` against column `q` of `w`, plus the bias at `q`. -/
def dense (a : Feat) (w : Wt) (b : Row) : Feat :=
  fun i => (∑ l : Fin 128, a (ix2 (i 0) l) * w (ix2 l (i 1))) + b (ix1 (i 1))

/-- A column's mean over the 50000 rows: the sum, started from the zero word, divided by the word of 50000. -/
def colMean (h : Feat) : Col := fun q => Ideal.div (zeroW + ∑ r : Fin 50000, h (ix2 r q)) rowsW

/-- A column's biased variance about `mu`: the mean of the squared deviations. -/
def colVar (h : Feat) (mu : Col) : Col :=
  fun q => Ideal.div (zeroW + ∑ r : Fin 50000, (h (ix2 r q) - mu q) * (h (ix2 r q) - mu q)) rowsW

/-- Normalise column `q` by the given mean and variance, scale by `g q`, shift by `beta q`, clamp below at zero. -/
def normRelu (h : Feat) (mu var : Col) (g beta : Row) : Feat :=
  fun i => max ((h i - mu (i 1)) * Ideal.rsqrt (var (i 1) + epsW) * g (ix1 (i 1)) + beta (ix1 (i 1))) zeroW

/-- Batch normalisation with the batch's own statistics, then the clamp. -/
def bnRelu (h : Feat) (g beta : Row) : Feat := normRelu h (colMean h) (colVar h (colMean h)) g beta

/-- The whole layer. -/
def layer (x aggr : Feat) (e : EReal) (W1 : Wt) (b1 g1 beta1 : Row) (W2 : Wt) (b2 g2 beta2 : Row) : Feat :=
  bnRelu (dense (bnRelu (dense (combine x aggr e) W1 b1) g1 beta1) W2 b2) g2 beta2

end Cert.Gin

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KRegionA.lean ====
/-
  The first dense layer, as the program's first kernel region computes it.

  The region walks the 50000 rows in ten blocks of 5000.  At point `t` it loads rows 5000·t … 5000·t + 4999 of the two
  row-blocked operands (the scaled self term and the neighbour sums), the whole 128 × 128 weight and the 1 × 128 bias,
  and stores (self + neighbours) · W + bias for those rows.  Entry (p, q) of a block depends on row `p` of the two
  row-blocked operands only, so the ten blocks are the ten row-slices of ONE function of the arrays the region finds,
  `Gin.dense` of their sum; the blocks tile the result, so the result array ends as that function.  Stated at a
  parameter `V` (the buffers' contents when the region is entered), as the generated per-region data are.
-/
import proofs.«121719_j1486058684700_1_alg».proof.Proof.Gen.KernelIdeal.Frame
import Idealize.ShloMosaic.Lib.Pipeline.Value
import Idealize.ShloMosaic.Lib.ValueIdx
import proofs.«121719_j1486058684700_1_alg».proof.Proof.Spec
import proofs.«121719_j1486058684700_1_alg».proof.Proof.LibMatmulPlain

set_option maxRecDepth 16384

noncomputable section

namespace Cert.KernelIdeal.RegionA

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the stored value at an entry -/

/-- The kernel's product contracts the left columns with the right rows and has no batch axis. -/
theorem plainDot : Cert.Gcn.IsPlain (M := 5000) (K := 128) (N := 128) dot_S5000x128_S128x128_S5000x128_1_0_0_1_n_n :=
  ⟨rfl, rfl, rfl, rfl, rfl, rfl⟩

/-- The 1 × 128 bias spread over the 5000 rows reads, at (p, q), the bias at (0, q). -/
theorem bias_apply (x3 : Vec Ideal S1x128 .f32) (p : Fin 5000) (q : Fin 128) :
    broadcastTo S5000x128 (shapeCast S1x128 x3 shapeCasts_S1x128_S1x128) broadcasts_S1x128_S5000x128 (ix2 p q) = x3 (ix2 (0 : Fin 1) q) := by
  rw [shapeCast_self]
  exact broadcastTo_apply x3 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- Entry (p, q) of what the body stores: row `p` of the summed operands against column `q` of the weight, plus the
    bias at `q` (the narrowing to bf16 is the identity on the extended reals, the accumulator is the zero splat). -/
theorem pay_apply (x0 x1 : Vec Ideal S5000x128 .f32) (x2 : Vec Ideal S128x128 .f32) (x3 : Vec Ideal S1x128 .f32)
    (p : Fin 5000) (q : Fin 128) :
    k0_pay1 x0 x1 x2 x3 (ix2 p q) = (∑ l : Fin 128, (x0 (ix2 p l) + x1 (ix2 p l)) * x2 (ix2 l q)) + x3 (ix2 (0 : Fin 1) q) := by
  unfold k0_pay1
  refine (congrArg₂ (· + ·)
    (Cert.Gcn.matmul_plain_apply (M := 5000) (K := 128) (N := 128) dot_S5000x128_S128x128_S5000x128_1_0_0_1_n_n plainDot none
      (truncf .bf16 (addf (shapeCast S5000x128 x0 shapeCasts_S5000x128_S5000x128) (shapeCast S5000x128 x1 shapeCasts_S5000x128_S5000x128)) bitsLt_bf16_f32)
      (truncf .bf16 x2 bitsLt_bf16_f32) p q)
    (bias_apply x3 p q)).trans ?_
  simp only [shapeCast_self]
  rfl

/-! ## Where a block sits in its array -/

theorem hz : (![0, 0] : Fin 2 → Nat) = fun _ => 0 := funext fun a => by fin_cases a <;> rfl

/-- The index maps over the ten points: the three row-blocked windows are at block row `t`, column block 0; the weight
    and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ t.val < 10 :=
  (by decide +kernel : ∀ t : Fin grid0.N, _)

/-- The array row that local row `p` of point `t`'s block is. -/
def rowAt (t : Fin cfg0.N) (p : Fin 5000) : Fin 50000 :=
  ⟨t.val * 5000 + p.val, by have := (idx_facts t).2.2.2.2.2.2.2.2.2.2; have := p.isLt; omega⟩

theorem emb_out (t : Fin cfg0.N) (p : Fin 5000) (q : Fin 128) :
    ((cfg0.win 4).blk t).view.emb (ix2 p q) = ix2 (rowAt t p) q := by
  obtain ⟨-, -, -, -, -, -, -, -, e0, e1, -⟩ := idx_facts t
  funext a; apply Fin.ext
  match a with
  | ⟨0, _⟩ => show win0_4.index t (0 : Fin 2) * 5000 + 1 * p.val = t.val * 5000 + p.val; omega
  | ⟨1, _⟩ => show win0_4.index t (1 : Fin 2) * 128 + 1 * q.val = q.val; omega

theorem emb_in0 (t : Fin cfg0.N) (p : Fin 5000) (q : Fin 128) :
    ((cfg0.win 0).blk t).view.emb (ix2 p q) = ix2 (rowAt t p) q := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * q.val = q.val; omega

theorem emb_in1 (t : Fin cfg0.N) (p : Fin 5000) (q : Fin 128) :
    ((cfg0.win 1).blk t).view.emb (ix2 p q) = ix2 (rowAt t p) q := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega

theorem emb_in2 (t : Fin cfg0.N) (l q : Fin 128) :
    ((cfg0.win 2).blk t).view.emb (ix2 l q) = ix2 l q := by
  obtain ⟨-, -, -, -, e0, e1, -⟩ := idx_facts t
  funext a; apply Fin.ext
  match a with
  | ⟨0, _⟩ => show win0_2.index t (0 : Fin 2) * 128 + 1 * l.val = l.val; omega
  | ⟨1, _⟩ => show win0_2.index t (1 : Fin 2) * 128 + 1 * q.val = q.val; omega

theorem emb_in3 (t : Fin cfg0.N) (q : Fin 128) :
    ((cfg0.win 3).blk t).view.emb (ix2 (0 : Fin 1) q) = ix2 (0 : Fin 1) q := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-! ## The region's result as one function of the arrays it finds -/

variable (V : (c : Dev nD) → (b : Ref sig .tc) → Buf (Elt Ideal) ((c : Thread nD τ).loc b))

/-- The four arrays the region reads, at their literal types. -/
abbrev xsArr (c : Dev nD) : S50000x128.Idx → EReal := V c main_v17
abbrev agArr (c : Dev nD) : S50000x128.Idx → EReal := V c main_v13
abbrev wArr (c : Dev nD) : S128x128.Idx → EReal := V c main_arg3
abbrev bArr (c : Dev nD) : S1x128.Idx → EReal := V c main_v18

/-- The dense layer of the summed row-blocked operands; the bias is carried as a 1 × 128 array. -/
abbrev G (xs aggr : S50000x128.Idx → EReal) (w : S128x128.Idx → EReal) (b : S1x128.Idx → EReal) : S50000x128.Idx → EReal :=
  Gin.dense (fun i => xs i + aggr i) w (fun j => b (ix2 (0 : Fin 1) (j 0)))

/-- Each window's block at point `t`, read at an entry, is its array at the entry's place in the array. -/
theorem blk0 (c : Dev nD) (t : Fin cfg0.N) (p : Fin 5000) (l : Fin 128) :
    iblk0 V c 0 t (ix2 p l) = xsArr V c (ix2 (rowAt t p) l) := congrArg (xsArr V c) (emb_in0 t p l)
theorem blk1 (c : Dev nD) (t : Fin cfg0.N) (p : Fin 5000) (l : Fin 128) :
    iblk0 V c 1 t (ix2 p l) = agArr V c (ix2 (rowAt t p) l) := congrArg (agArr V c) (emb_in1 t p l)
theorem blk2 (c : Dev nD) (t : Fin cfg0.N) (l q : Fin 128) :
    iblk0 V c 2 t (ix2 l q) = wArr V c (ix2 l q) := congrArg (wArr V c) (emb_in2 t l q)
theorem blk3 (c : Dev nD) (t : Fin cfg0.N) (q : Fin 128) :
    iblk0 V c 3 t (ix2 (0 : Fin 1) q) = bArr V c (ix2 (0 : Fin 1) q) := congrArg (bArr V c) (emb_in3 t q)

/-- What point `t` writes back is block `t` of `G`. -/
theorem flushed_eq (c : Dev nD) (t : Fin cfg0.N) :
    (dat0 V c).flushed 4 t
      = ((cfg0.win 4).blk t).view.read (Elt Ideal) (G (xsArr V c) (agArr V c) (wArr V c) (bArr V c)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (ix2 p q)
    = G (xsArr V c) (agArr V c) (wArr V c) (bArr V c) (((cfg0.win 4).blk t).view.emb (ix2 p q))
  rw [emb_out]
  refine (pay_apply (iblk0 V c 0 t) (iblk0 V c 1 t) (iblk0 V c 2 t) (iblk0 V c 3 t) p q).trans ?_
  simp only [blk0 V c t, blk1 V c t, blk2 V c t, blk3 V c t]
  rfl

/-- An index of the result array is in point `t`'s block iff each coordinate is in the block's range. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v24).slice (win0_4.rect t)).set ↔ _
  rw [View.set_slice_whole, Rect.mem_set_unit]
  exact Iff.rfl

/-- Row `r` lies in the block of point `r / 5000`: the ten blocks tile the array. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 5000 < cfg0.N := by show (i 0).val / 5000 < grid0.N; rw [N_0]; omega
  refine ⟨⟨(i 0).val / 5000, hN⟩, flush0_4 _, ?_⟩
  obtain ⟨-, -, -, -, -, -, -, -, e0, e1, -⟩ := idx_facts ⟨(i 0).val / 5000, hN⟩
  have e0' : win0_4.index ⟨(i 0).val / 5000, hN⟩ (0 : Fin 2) = (i 0).val / 5000 := e0
  rw [mem_blk]
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; omega
  | ⟨1, _⟩ => show win0_4.index ⟨(i 0).val / 5000, hN⟩ (1 : Fin 2) * 128 ≤ (i 1).val ∧ (i 1).val < win0_4.index ⟨(i 0).val / 5000, hN⟩ (1 : Fin 2) * 128 + 128; omega

/-- After the region, the result array is the dense layer of the arrays the region found. -/
theorem final (c : Dev nD) :
    (dat0 V c).arrAt 4 cfg0.N = G (xsArr V c) (agArr V c) (wArr V c) (bArr V c) :=
  (dat0 V c).arrAt_eq_of_cover 4 _ (fun t _ => flushed_eq V c t) cover

end Cert.KernelIdeal.RegionA

end
-- ==== Proof.KBody.lean ====
/-
  The part the second and third kernels share: on a block of 5000 rows, subtract each column's mean, multiply by the
  reciprocal square root of the column's variance plus 1e-5, scale, shift, clamp below at zero.  The four per-column
  operands arrive as 1 × 128 rows spread over the block's rows, so entry (p, l) reads each of them at (0, l).
-/
import proofs.«121719_j1486058684700_1_alg».proof.Proof.Gen.KernelIdeal.Frame
import Idealize.ShloMosaic.Lib.Pipeline.Value
import Idealize.ShloMosaic.Lib.ValueIdx
import proofs.«121719_j1486058684700_1_alg».proof.Proof.Spec
import proofs.«121719_j1486058684700_1_alg».proof.Proof.LibMatmulPlain

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx

/-- The kernels' product contracts the left columns with the right rows and has no batch axis. -/
theorem plainDot : Cert.Gcn.IsPlain (M := 5000) (K := 128) (N := 128) dot_S5000x128_S128x128_S5000x128_1_0_0_1_n_n :=
  ⟨rfl, rfl, rfl, rfl, rfl, rfl⟩

/-- A 1 × 128 row spread over 5000 rows reads, at (p, q), the row at (0, q). -/
theorem row_apply {α : Type} (y : S1x128.Idx → α) (p : Fin 5000) (q : Fin 128) :
    broadcastTo S5000x128 y broadcasts_S1x128_S5000x128 (ix2 p q) = y (ix2 (0 : Fin 1) q) :=
  broadcastTo_apply y broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The same through the identity reshape the kernels put before it (the bias of a dense layer). -/
theorem bias_apply (x : Vec Ideal S1x128 .f32) (p : Fin 5000) (q : Fin 128) :
    broadcastTo S5000x128 (shapeCast S1x128 x shapeCasts_S1x128_S1x128) broadcasts_S1x128_S5000x128 (ix2 p q) = x (ix2 (0 : Fin 1) q) := by
  rw [shapeCast_self]; exact row_apply x p q

/-- Normalise, scale, shift, clamp: the kernels' own operations on a block `v0` and the four rows. -/
def act (v0 : Vec Ideal S5000x128 .f32) (v2 v6 v13 v17 : Vec Ideal S1x128 .f32) : FVec Ideal S5000x128 .f32 :=
  maximumf
    (addf
      (mulf
        (mulf
          (subf (shapeCast S5000x128 v0 shapeCasts_S5000x128_S5000x128)
            (broadcastTo S5000x128 (shapeCast S1x128 v2 shapeCasts_S1x128_S1x128) broadcasts_S1x128_S5000x128))
          (broadcastTo S5000x128
            (rsqrt (addf (shapeCast S1x128 v6 shapeCasts_S1x128_S1x128) (broadcast S1x128 (Scalar.ofBits .f32 0x3727C5AC#32 : Ideal .f32))))
            broadcasts_S1x128_S5000x128))
        (broadcastTo S5000x128 (shapeCast S1x128 v13 shapeCasts_S1x128_S1x128) broadcasts_S1x128_S5000x128))
      (broadcastTo S5000x128 (shapeCast S1x128 v17 shapeCasts_S1x128_S1x128) broadcasts_S1x128_S5000x128))
    (broadcast S5000x128 (Scalar.ofBits .f32 0x00000000#32 : Ideal .f32))

/-- Entry (p, l) of it: column `l`'s statistics, scale and shift applied to the block's entry. -/
theorem act_apply (v0 : Vec Ideal S5000x128 .f32) (mu var g beta : Vec Ideal S1x128 .f32) (p : Fin 5000) (l : Fin 128) :
    act v0 mu var g beta (ix2 p l)
      = max ((v0 (ix2 p l) - mu (ix2 (0 : Fin 1) l)) * Ideal.rsqrt (var (ix2 (0 : Fin 1) l) + Gin.epsW) * g (ix2 (0 : Fin 1) l)
          + beta (ix2 (0 : Fin 1) l)) Gin.zeroW := by
  unfold act
  simp only [shapeCast_self, maximumf_apply, addf_apply, mulf_apply, subf_apply]
  rw [row_apply mu p l, row_apply g p l, row_apply beta p l, row_apply (rsqrt (addf var (broadcast S1x128 (Scalar.ofBits .f32 0x3727C5AC#32 : Ideal .f32)))) p l]
  rfl

end Cert.KernelIdeal.Body

end
-- ==== Proof.KRegionB.lean ====
/-
  The second kernel region: batch normalisation and the clamp, then the second dense layer.

  At point `t` the region loads rows 5000·t … 5000·t + 4999 of the first layer's result, the column means and variances
  (computed on the host over all 50000 rows before the region), the scale and shift rows, the whole second weight and
  its bias, and stores (clamp (normalise rows)) · W + bias.  Entry (p, q) of a block depends on row `p` of the
  row-blocked operand only, so the ten blocks are the row-slices of ONE function of the arrays the region finds:
  `Gin.dense` of `Gin.normRelu` at the given statistics.  The blocks tile the result.
-/
import proofs.«121719_j1486058684700_1_alg».proof.Proof.Gen.KernelIdeal.Frame
import Idealize.ShloMosaic.Lib.Pipeline.Value
import Idealize.ShloMosaic.Lib.ValueIdx
import proofs.«121719_j1486058684700_1_alg».proof.Proof.Spec
import proofs.«121719_j1486058684700_1_alg».proof.Proof.LibMatmulPlain
import proofs.«121719_j1486058684700_1_alg».proof.Proof.KBody

set_option maxRecDepth 16384

noncomputable section

namespace Cert.KernelIdeal.RegionB

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the stored value at an entry -/

/-- Entry (p, q) of what the body stores: row `p` of the normalised, clamped block against column `q` of the weight,
    plus the bias at `q`. -/
theorem pay_apply (x0 : Vec Ideal S5000x128 .f32) (mu var g beta : Vec Ideal S1x128 .f32) (w : Vec Ideal S128x128 .f32)
    (b : Vec Ideal S1x128 .f32) (p : Fin 5000) (q : Fin 128) :
    k1_pay1 x0 mu var g beta w b (ix2 p q)
      = (∑ l : Fin 128,
          max ((x0 (ix2 p l) - mu (ix2 (0 : Fin 1) l)) * Ideal.rsqrt (var (ix2 (0 : Fin 1) l) + Gin.epsW) * g (ix2 (0 : Fin 1) l)
            + beta (ix2 (0 : Fin 1) l)) Gin.zeroW * w (ix2 l q))
        + b (ix2 (0 : Fin 1) q) := by
  unfold k1_pay1
  refine (congrArg₂ (· + ·)
    (Cert.Gcn.matmul_plain_apply (M := 5000) (K := 128) (N := 128) dot_S5000x128_S128x128_S5000x128_1_0_0_1_n_n Body.plainDot none
      (truncf .bf16 (Body.act x0 mu var g beta) bitsLt_bf16_f32) (truncf .bf16 w bitsLt_bf16_f32) p q)
    (Body.bias_apply b p q)).trans ?_
  refine congrArg (· + _) (Finset.sum_congr rfl fun l _ => ?_)
  exact congrArg (· * _) (Body.act_apply x0 mu var g beta p l)

/-! ## Where a block sits in its array -/

theorem hz : (![0, 0] : Fin 2 → Nat) = fun _ => 0 := funext fun a => by fin_cases a <;> rfl

/-- The index maps over the ten points: the two row-blocked windows are at block row `t`, column block 0; every other
    window stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt : ∀ t : Fin cfg1.N, t.val < 10 := (by decide +kernel : ∀ t : Fin grid1.N, t.val < 10)

/-- The array row that local row `p` of point `t`'s block is. -/
def rowAt (t : Fin cfg1.N) (p : Fin 5000) : Fin 50000 :=
  ⟨t.val * 5000 + p.val, by have := t_lt t; have := p.isLt; omega⟩

theorem emb_out (t : Fin cfg1.N) (p : Fin 5000) (q : Fin 128) :
    ((cfg1.win 7).blk t).view.emb (ix2 p q) = ix2 (rowAt t p) q := by
  obtain ⟨-, -, -, -, -, -, -, -, -, -, -, -, -, -, e0, e1⟩ := idx_facts t
  funext a; apply Fin.ext
  match a with
  | ⟨0, _⟩ => show win1_7.index t (0 : Fin 2) * 5000 + 1 * p.val = t.val * 5000 + p.val; omega
  | ⟨1, _⟩ => show win1_7.index t (1 : Fin 2) * 128 + 1 * q.val = q.val; omega

theorem emb_in0 (t : Fin cfg1.N) (p : Fin 5000) (q : Fin 128) :
    ((cfg1.win 0).blk t).view.emb (ix2 p q) = ix2 (rowAt t p) q := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb_in1 (t : Fin cfg1.N) (q : Fin 128) :
    ((cfg1.win 1).blk t).view.emb (ix2 (0 : Fin 1) q) = ix2 (0 : Fin 1) q := by
  obtain ⟨-, -, e0, e1, -⟩ := idx_facts t
  funext a; apply Fin.ext
  match a with
  | ⟨0, _⟩ => show win1_1.index t (0 : Fin 2) * 1 + 1 * 0 = 0; omega
  | ⟨1, _⟩ => show win1_1.index t (1 : Fin 2) * 128 + 1 * q.val = q.val; omega

theorem emb_in2 (t : Fin cfg1.N) (q : Fin 128) :
    ((cfg1.win 2).blk t).view.emb (ix2 (0 : Fin 1) q) = ix2 (0 : Fin 1) q := by
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem emb_in3 (t : Fin cfg1.N) (q : Fin 128) :
    ((cfg1.win 3).blk t).view.emb (ix2 (0 : Fin 1) q) = ix2 (0 : Fin 1) q := by
  obtain ⟨-, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem emb_in4 (t : Fin cfg1.N) (q : Fin 128) :
    ((cfg1.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem emb_in5 (t : Fin cfg1.N) (l q : Fin 128) :
    ((cfg1.win 5).blk t).view.emb (ix2 l q) = ix2 l q := by
  obtain ⟨-, -, -, -, -, -, -, -, -, -, e0, e1, -⟩ := idx_facts t
  funext a; apply Fin.ext
  match a with
  | ⟨0, _⟩ => show win1_5.index t (0 : Fin 2) * 128 + 1 * l.val = l.val; omega
  | ⟨1, _⟩ => show win1_5.index t (1 : Fin 2) * 128 + 1 * q.val = q.val; omega

theorem emb_in6 (t : Fin cfg1.N) (q : Fin 128) :
    ((cfg1.win 6).blk t).view.emb (ix2 (0 : Fin 1) q) = ix2 (0 : Fin 1) q := by
  obtain ⟨-, -, -, -, -, -, -, -, -, -, -, -, e0, e1, -⟩ := idx_facts t
  funext a; apply Fin.ext
  match a with
  | ⟨0, _⟩ => show win1_6.index t (0 : Fin 2) * 1 + 1 * 0 = 0; omega
  | ⟨1, _⟩ => show win1_6.index t (1 : Fin 2) * 128 + 1 * q.val = q.val; omega

/-! ## The region's result as one function of the arrays it finds -/

variable (V : (c : Dev nD) → (b : Ref sig .tc) → Buf (Elt Ideal) ((c : Thread nD τ).loc b))

/-- The seven arrays the region reads, at their literal types. -/
abbrev hArr (c : Dev nD) : S50000x128.Idx → EReal := V c main_v24
abbrev muArr (c : Dev nD) : S1x128.Idx → EReal := V c main_v28
abbrev varArr (c : Dev nD) : S1x128.Idx → EReal := V c main_v35
abbrev gArr (c : Dev nD) : S1x128.Idx → EReal := V c main_v19
abbrev betaArr (c : Dev nD) : S1x128.Idx → EReal := V c main_v20
abbrev wArr (c : Dev nD) : S128x128.Idx → EReal := V c main_arg7
abbrev bArr (c : Dev nD) : S1x128.Idx → EReal := V c main_v21

/-- Normalise with the given statistics, scale, shift, clamp, then the dense layer; the per-column operands are carried
    as 1 × 128 arrays. -/
abbrev G (h : S50000x128.Idx → EReal) (mu var g beta : S1x128.Idx → EReal) (w : S128x128.Idx → EReal) (b : S1x128.Idx → EReal) :
    S50000x128.Idx → EReal :=
  Gin.dense
    (Gin.normRelu h (fun q => mu (ix2 (0 : Fin 1) q)) (fun q => var (ix2 (0 : Fin 1) q))
      (fun j => g (ix2 (0 : Fin 1) (j 0))) (fun j => beta (ix2 (0 : Fin 1) (j 0))))
    w (fun j => b (ix2 (0 : Fin 1) (j 0)))

/-- Each window's block at point `t`, read at an entry, is its array at the entry's place in the array. -/
theorem blk0 (c : Dev nD) (t : Fin cfg1.N) (p : Fin 5000) (l : Fin 128) :
    iblk1 V c 0 t (ix2 p l) = hArr V c (ix2 (rowAt t p) l) := congrArg (hArr V c) (emb_in0 t p l)
theorem blk1 (c : Dev nD) (t : Fin cfg1.N) (q : Fin 128) :
    iblk1 V c 1 t (ix2 (0 : Fin 1) q) = muArr V c (ix2 (0 : Fin 1) q) := congrArg (muArr V c) (emb_in1 t q)
theorem blk2 (c : Dev nD) (t : Fin cfg1.N) (q : Fin 128) :
    iblk1 V c 2 t (ix2 (0 : Fin 1) q) = varArr V c (ix2 (0 : Fin 1) q) := congrArg (varArr V c) (emb_in2 t q)
theorem blk3 (c : Dev nD) (t : Fin cfg1.N) (q : Fin 128) :
    iblk1 V c 3 t (ix2 (0 : Fin 1) q) = gArr V c (ix2 (0 : Fin 1) q) := congrArg (gArr V c) (emb_in3 t q)
theorem blk4 (c : Dev nD) (t : Fin cfg1.N) (q : Fin 128) :
    iblk1 V c 4 t (ix2 (0 : Fin 1) q) = betaArr V c (ix2 (0 : Fin 1) q) := congrArg (betaArr V c) (emb_in4 t q)
theorem blk5 (c : Dev nD) (t : Fin cfg1.N) (l q : Fin 128) :
    iblk1 V c 5 t (ix2 l q) = wArr V c (ix2 l q) := congrArg (wArr V c) (emb_in5 t l q)
theorem blk6 (c : Dev nD) (t : Fin cfg1.N) (q : Fin 128) :
    iblk1 V c 6 t (ix2 (0 : Fin 1) q) = bArr V c (ix2 (0 : Fin 1) q) := congrArg (bArr V c) (emb_in6 t q)

/-- What point `t` writes back is block `t` of `G`. -/
theorem flushed_eq (c : Dev nD) (t : Fin cfg1.N) :
    (dat1 V c).flushed 7 t
      = ((cfg1.win 7).blk t).view.read (Elt Ideal)
          (G (hArr V c) (muArr V c) (varArr V c) (gArr V c) (betaArr V c) (wArr V c) (bArr V c)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 p q)
    = G (hArr V c) (muArr V c) (varArr V c) (gArr V c) (betaArr V c) (wArr V c) (bArr V c) (((cfg1.win 7).blk t).view.emb (ix2 p q))
  rw [emb_out]
  refine (pay_apply (iblk1 V c 0 t) (iblk1 V c 1 t) (iblk1 V c 2 t) (iblk1 V c 3 t) (iblk1 V c 4 t) (iblk1 V c 5 t) (iblk1 V c 6 t) p q).trans ?_
  simp only [blk0 V c t, blk1 V c t, blk2 V c t, blk3 V c t, blk4 V c t, blk5 V c t, blk6 V c t]
  rfl

/-- An index of the result array is in point `t`'s block iff each coordinate is in the block's range. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v36).slice (win1_7.rect t)).set ↔ _
  rw [View.set_slice_whole, Rect.mem_set_unit]
  exact Iff.rfl

/-- Row `r` lies in the block of point `r / 5000`: the ten blocks tile the array. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : (i 0).val / 5000 < cfg1.N := by show (i 0).val / 5000 < grid1.N; rw [N_1]; omega
  refine ⟨⟨(i 0).val / 5000, hN⟩, flush1_7 _, ?_⟩
  obtain ⟨-, -, -, -, -, -, -, -, -, -, -, -, -, -, e0, e1⟩ := idx_facts ⟨(i 0).val / 5000, hN⟩
  have e0' : win1_7.index ⟨(i 0).val / 5000, hN⟩ (0 : Fin 2) = (i 0).val / 5000 := e0
  rw [mem_blk]
  intro a
  match a with
  | ⟨0, _⟩ => show win1_7.index ⟨(i 0).val / 5000, hN⟩ (0 : Fin 2) * 5000 ≤ (i 0).val ∧ (i 0).val < win1_7.index ⟨(i 0).val / 5000, hN⟩ (0 : Fin 2) * 5000 + 5000; omega
  | ⟨1, _⟩ => show win1_7.index ⟨(i 0).val / 5000, hN⟩ (1 : Fin 2) * 128 ≤ (i 1).val ∧ (i 1).val < win1_7.index ⟨(i 0).val / 5000, hN⟩ (1 : Fin 2) * 128 + 128; omega

/-- After the region, the result array is that function of the arrays the region found. -/
theorem final (c : Dev nD) :
    (dat1 V c).arrAt 7 cfg1.N = G (hArr V c) (muArr V c) (varArr V c) (gArr V c) (betaArr V c) (wArr V c) (bArr V c) :=
  (dat1 V c).arrAt_eq_of_cover 7 _ (fun t _ => flushed_eq V c t) cover

end Cert.KernelIdeal.RegionB

end
-- ==== Proof.KRegionC.lean ====
/-
  The third kernel region: the second batch normalisation and the clamp.

  At point `t` the region loads rows 5000·t … 5000·t + 4999 of the second layer's result and the column means and
  variances (computed on the host over all 50000 rows before the region), the scale and shift rows, and stores the
  normalised, scaled, shifted, clamped rows.  The stored entry at (p, q) depends on the loaded entry at (p, q) and on
  column `q`'s four numbers, so the ten blocks are the row-slices of `Gin.normRelu` of the arrays the region finds, and
  they tile the result.
-/
import proofs.«121719_j1486058684700_1_alg».proof.Proof.Gen.KernelIdeal.Frame
import Idealize.ShloMosaic.Lib.Pipeline.Value
import Idealize.ShloMosaic.Lib.ValueIdx
import proofs.«121719_j1486058684700_1_alg».proof.Proof.Spec
import proofs.«121719_j1486058684700_1_alg».proof.Proof.LibMatmulPlain
import proofs.«121719_j1486058684700_1_alg».proof.Proof.KBody

set_option maxRecDepth 16384

noncomputable section

namespace Cert.KernelIdeal.RegionC

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the stored value at an entry -/

/-- Entry (p, q) of what the body stores. -/
theorem pay_apply (x0 : Vec Ideal S5000x128 .f32) (mu var g beta : Vec Ideal S1x128 .f32) (p : Fin 5000) (q : Fin 128) :
    k2_pay1 x0 mu var g beta (ix2 p q)
      = max ((x0 (ix2 p q) - mu (ix2 (0 : Fin 1) q)) * Ideal.rsqrt (var (ix2 (0 : Fin 1) q) + Gin.epsW) * g (ix2 (0 : Fin 1) q)
          + beta (ix2 (0 : Fin 1) q)) Gin.zeroW :=
  Body.act_apply x0 mu var g beta p q

/-! ## Where a block sits in its array -/

theorem hz : (![0, 0] : Fin 2 → Nat) = fun _ => 0 := funext fun a => by fin_cases a <;> rfl

/-- The index maps over the ten points: the two row-blocked windows are at block row `t`, column block 0; the four
    rows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt : ∀ t : Fin cfg2.N, t.val < 10 := (by decide +kernel : ∀ t : Fin grid2.N, t.val < 10)

/-- The array row that local row `p` of point `t`'s block is. -/
def rowAt (t : Fin cfg2.N) (p : Fin 5000) : Fin 50000 :=
  ⟨t.val * 5000 + p.val, by have := t_lt t; have := p.isLt; omega⟩

theorem emb_out (t : Fin cfg2.N) (p : Fin 5000) (q : Fin 128) :
    ((cfg2.win 5).blk t).view.emb (ix2 p q) = ix2 (rowAt t p) q := by
  obtain ⟨-, -, -, -, -, -, -, -, -, -, e0, e1⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

theorem emb_in0 (t : Fin cfg2.N) (p : Fin 5000) (q : Fin 128) :
    ((cfg2.win 0).blk t).view.emb (ix2 p q) = ix2 (rowAt t p) q := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

theorem emb_in1 (t : Fin cfg2.N) (q : Fin 128) :
    ((cfg2.win 1).blk t).view.emb (ix2 (0 : Fin 1) q) = ix2 (0 : Fin 1) q := by
  obtain ⟨-, -, e0, e1, -⟩ := idx_facts t
  funext a; apply Fin.ext
  match a with
  | ⟨0, _⟩ => show win2_1.index t (0 : Fin 2) * 1 + 1 * 0 = 0; omega
  | ⟨1, _⟩ => show win2_1.index t (1 : Fin 2) * 128 + 1 * q.val = q.val; omega

theorem emb_in2 (t : Fin cfg2.N) (q : Fin 128) :
    ((cfg2.win 2).blk t).view.emb (ix2 (0 : Fin 1) q) = ix2 (0 : Fin 1) q := by
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 128 + 1 * q.val = q.val; omega

theorem emb_in3 (t : Fin cfg2.N) (q : Fin 128) :
    ((cfg2.win 3).blk t).view.emb (ix2 (0 : Fin 1) q) = ix2 (0 : Fin 1) q := by
  obtain ⟨-, -, -, -, -, -, e0, e1, -⟩ := idx_facts t
  funext a; apply Fin.ext
  match a with
  | ⟨0, _⟩ => show win2_3.index t (0 : Fin 2) * 1 + 1 * 0 = 0; omega
  | ⟨1, _⟩ => show win2_3.index t (1 : Fin 2) * 128 + 1 * q.val = q.val; omega

theorem emb_in4 (t : Fin cfg2.N) (q : Fin 128) :
    ((cfg2.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-! ## The region's result as one function of the arrays it finds -/

variable (V : (c : Dev nD) → (b : Ref sig .tc) → Buf (Elt Ideal) ((c : Thread nD τ).loc b))

/-- The five arrays the region reads, at their literal types. -/
abbrev hArr (c : Dev nD) : S50000x128.Idx → EReal := V c main_v36
abbrev muArr (c : Dev nD) : S1x128.Idx → EReal := V c main_v40
abbrev varArr (c : Dev nD) : S1x128.Idx → EReal := V c main_v47
abbrev gArr (c : Dev nD) : S1x128.Idx → EReal := V c main_v22
abbrev betaArr (c : Dev nD) : S1x128.Idx → EReal := V c main_v23

/-- Normalise with the given statistics, scale, shift, clamp; the per-column operands are carried as 1 × 128 arrays. -/
abbrev G (h : S50000x128.Idx → EReal) (mu var g beta : S1x128.Idx → EReal) : S50000x128.Idx → EReal :=
  Gin.normRelu h (fun q => mu (ix2 (0 : Fin 1) q)) (fun q => var (ix2 (0 : Fin 1) q))
    (fun j => g (ix2 (0 : Fin 1) (j 0))) (fun j => beta (ix2 (0 : Fin 1) (j 0)))

/-- Each window's block at point `t`, read at an entry, is its array at the entry's place in the array. -/
theorem blk0 (c : Dev nD) (t : Fin cfg2.N) (p : Fin 5000) (l : Fin 128) :
    iblk2 V c 0 t (ix2 p l) = hArr V c (ix2 (rowAt t p) l) := congrArg (hArr V c) (emb_in0 t p l)
theorem blk1 (c : Dev nD) (t : Fin cfg2.N) (q : Fin 128) :
    iblk2 V c 1 t (ix2 (0 : Fin 1) q) = muArr V c (ix2 (0 : Fin 1) q) := congrArg (muArr V c) (emb_in1 t q)
theorem blk2 (c : Dev nD) (t : Fin cfg2.N) (q : Fin 128) :
    iblk2 V c 2 t (ix2 (0 : Fin 1) q) = varArr V c (ix2 (0 : Fin 1) q) := congrArg (varArr V c) (emb_in2 t q)
theorem blk3 (c : Dev nD) (t : Fin cfg2.N) (q : Fin 128) :
    iblk2 V c 3 t (ix2 (0 : Fin 1) q) = gArr V c (ix2 (0 : Fin 1) q) := congrArg (gArr V c) (emb_in3 t q)
theorem blk4 (c : Dev nD) (t : Fin cfg2.N) (q : Fin 128) :
    iblk2 V c 4 t (ix2 (0 : Fin 1) q) = betaArr V c (ix2 (0 : Fin 1) q) := congrArg (betaArr V c) (emb_in4 t q)

/-- What point `t` writes back is block `t` of `G`. -/
theorem flushed_eq (c : Dev nD) (t : Fin cfg2.N) :
    (dat2 V c).flushed 5 t
      = ((cfg2.win 5).blk t).view.read (Elt Ideal) (G (hArr V c) (muArr V c) (varArr V c) (gArr V c) (betaArr V c)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = G (hArr V c) (muArr V c) (varArr V c) (gArr V c) (betaArr V c) (((cfg2.win 5).blk t).view.emb (ix2 p q))
  rw [emb_out]
  refine (pay_apply (iblk2 V c 0 t) (iblk2 V c 1 t) (iblk2 V c 2 t) (iblk2 V c 3 t) (iblk2 V c 4 t) p q).trans ?_
  simp only [blk0 V c t, blk1 V c t, blk2 V c t, blk3 V c t, blk4 V c t]
  rfl

/-- An index of the result array is in point `t`'s block iff each coordinate is in the block's range. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v48).slice (win2_5.rect t)).set ↔ _
  rw [View.set_slice_whole, Rect.mem_set_unit]
  exact Iff.rfl

/-- Row `r` lies in the block of point `r / 5000`: the ten blocks tile the array. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < cfg2.N := by show (i 0).val / 5000 < grid2.N; rw [N_2]; omega
  refine ⟨⟨(i 0).val / 5000, hN⟩, flush2_5 _, ?_⟩
  obtain ⟨-, -, -, -, -, -, -, -, -, -, e0, e1⟩ := idx_facts ⟨(i 0).val / 5000, hN⟩
  have e0' : win2_5.index ⟨(i 0).val / 5000, hN⟩ (0 : Fin 2) = (i 0).val / 5000 := e0
  rw [mem_blk]
  intro a
  match a with
  | ⟨0, _⟩ => show win2_5.index ⟨(i 0).val / 5000, hN⟩ (0 : Fin 2) * 5000 ≤ (i 0).val ∧ (i 0).val < win2_5.index ⟨(i 0).val / 5000, hN⟩ (0 : Fin 2) * 5000 + 5000; omega
  | ⟨1, _⟩ => show win2_5.index ⟨(i 0).val / 5000, hN⟩ (1 : Fin 2) * 128 ≤ (i 1).val ∧ (i 1).val < win2_5.index ⟨(i 0).val / 5000, hN⟩ (1 : Fin 2) * 128 + 128; omega

/-- After the region, the result array is that function of the arrays the region found. -/
theorem final (c : Dev nD) :
    (dat2 V c).arrAt 5 cfg2.N = G (hArr V c) (muArr V c) (varArr V c) (gArr V c) (betaArr V c) :=
  (dat2 V c).arrAt_eq_of_cover 5 _ (fun t _ => flushed_eq V c t) cover

end Cert.KernelIdeal.RegionC

end
-- ==== Proof.KHost.lean ====
/-
  The column statistics between two kernel regions, and the buffers each region finds.

  Between the regions the program computes, on the host and over all 50000 rows of a region's result `h`, each column's
  mean (the sum from the zero word, divided by the word of 50000) and each column's biased variance about that mean,
  both laid out as 1 × 128 arrays.  Read at (0, q) they are `Gin.colMean h q` and `Gin.colVar h (Gin.colMean h) q`.
-/
import proofs.«121719_j1486058684700_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws
import proofs.«121719_j1486058684700_1_alg».proof.Proof.Spec
import proofs.«121719_j1486058684700_1_alg».proof.Proof.Gen.ReferenceIdeal.Read

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-! ## Layout operations of the host stretches, read at an entry -/

/-- A vector of 128 laid out as a 1 × 128 array reads, at (0, q), the vector at `q`. -/
theorem rowOf_apply {α : Type} (y : S128.Idx → α) (q : Fin 128) :
    broadcastInDim S1x128 ![1] bcast_S128_S1x128_1 y (ix2 (0 : Fin 1) q) = y (ix1 q) :=
  broadcastInDim_apply _ bcast_S128_S1x128_1 y (ix2 (0 : Fin 1) q) (ix1 q) (fun a => match a with
    | ⟨0, _⟩ => by show q.val = if (128 : Nat) = 1 then 0 else q.val; rw [if_neg (by decide)])

/-- A scalar spread over a 1 × 128 array reads the scalar. -/
theorem splatRow_apply {α : Type} (y : S_.Idx → α) (q : Fin 128) :
    broadcastInDim S1x128 ![] bcast_S_S1x128 y (ix2 (0 : Fin 1) q) = y ix0 :=
  broadcastInDim_apply _ bcast_S_S1x128 y (ix2 (0 : Fin 1) q) ix0 (fun a => a.elim0)

/-- A 1 × 128 array spread over 50000 rows reads, at (r, q), the array at (0, q). -/
theorem spread_apply {α : Type} (y : S1x128.Idx → α) (r : Fin 50000) (q : Fin 128) :
    broadcastInDim S50000x128 ![0, 1] bcast_S1x128_S50000x128_0_1 y (ix2 r q) = y (ix2 (0 : Fin 1) q) :=
  broadcastInDim_apply _ bcast_S1x128_S50000x128_0_1 y (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- The host's sum over the rows, from the zero word, at column `q`. -/
theorem colsum_apply (h : S50000x128.Idx → EReal) (q : Fin 128) :
    Host.reduceAdd (F := Ideal) h (constant (F := Ideal) S_ .f32 0x00000000#32) reducesTo_S50000x128_S128_d0 h_S_ (ix1 q)
      = Gin.zeroW + ∑ r : Fin 50000, h (ix2 r q) := by
  simp only [Host.reduceAdd, Ideal.hostReduceAdd_def]
  rw [Ideal.hostReduceAdd_single reducesTo_S50000x128_S128_d0 (by decide)]
  refine congrArg (_ + ·) (Finset.sum_congr rfl fun k _ => ?_)
  exact congrArg h (funext fun a => Fin.ext (by match a with | ⟨0, _⟩ => rfl | ⟨1, _⟩ => rfl))

/-! ## The two statistics as the host computes them -/

/-- The column means of `h`, as a 1 × 128 array: the host's own operations. -/
def meanT (h : S50000x128.Idx → EReal) : S1x128.Idx → EReal :=
  Host.divf (F := Ideal)
    (broadcastInDim S1x128 ![1] bcast_S128_S1x128_1
      (Host.reduceAdd (F := Ideal) h (constant (F := Ideal) S_ .f32 0x00000000#32) reducesTo_S50000x128_S128_d0 h_S_))
    (broadcastInDim S1x128 ![] bcast_S_S1x128 (constant (F := Ideal) S_ .f32 0x47435000#32))

/-- The column variances of `h` about those means, as a 1 × 128 array: the host's own operations. -/
def varT (h : S50000x128.Idx → EReal) : S1x128.Idx → EReal :=
  Host.divf (F := Ideal)
    (broadcastInDim S1x128 ![1] bcast_S128_S1x128_1
      (Host.reduceAdd (F := Ideal)
        (mulf (subf h (broadcastInDim S50000x128 ![0, 1] bcast_S1x128_S50000x128_0_1 (meanT h)))
          (subf h (broadcastInDim S50000x128 ![0, 1] bcast_S1x128_S50000x128_0_1 (meanT h))))
        (constant (F := Ideal) S_ .f32 0x00000000#32) reducesTo_S50000x128_S128_d0 h_S_))
    (broadcastInDim S1x128 ![] bcast_S_S1x128 (constant (F := Ideal) S_ .f32 0x47435000#32))

theorem meanT_apply (h : S50000x128.Idx → EReal) (q : Fin 128) : meanT h (ix2 (0 : Fin 1) q) = Gin.colMean h q := by
  unfold meanT
  show Ideal.div _ _ = _
  rw [rowOf_apply, splatRow_apply, colsum_apply, constant_apply]
  rfl

theorem varT_apply (h : S50000x128.Idx → EReal) (q : Fin 128) :
    varT h (ix2 (0 : Fin 1) q) = Gin.colVar h (Gin.colMean h) q := by
  unfold varT
  show Ideal.div _ _ = _
  rw [rowOf_apply, splatRow_apply, colsum_apply, constant_apply]
  unfold Gin.colVar
  refine congrArg (fun z => Ideal.div (Gin.zeroW + z) Gin.rowsW) (Finset.sum_congr rfl fun r _ => ?_)
  show (h (ix2 r q) - broadcastInDim S50000x128 ![0, 1] bcast_S1x128_S50000x128_0_1 (meanT h) (ix2 r q))
      * (h (ix2 r q) - broadcastInDim S50000x128 ![0, 1] bcast_S1x128_S50000x128_0_1 (meanT h) (ix2 r q)) = _
  rw [spread_apply, meanT_apply]

/-! ## The self term and the reshaped rows, as the first host stretch computes them -/

/-- `(1 + e) · x`: the host's own operations (the scalar `e` arrives as a one-element vector). -/
def selfT (x : S50000x128.Idx → EReal) (e : S1.Idx → EReal) : S50000x128.Idx → EReal :=
  mulf (broadcastInDim S50000x128 ![] bcast_S_S50000x128
      (addf (constant (F := Ideal) S_ .f32 0x3F800000#32) (shapeCast S_ e shapeCasts_S1_S_))) x

theorem selfT_apply (x : S50000x128.Idx → EReal) (e : S1.Idx → EReal) (i : S50000x128.Idx) :
    selfT x e i = (Gin.oneW + e (ix1 (0 : Fin 1))) * x i := by
  unfold selfT
  show broadcastInDim S50000x128 ![] bcast_S_S50000x128
      (addf (constant (F := Ideal) S_ .f32 0x3F800000#32) (shapeCast S_ e shapeCasts_S1_S_)) i * x i = _
  rw [broadcastInDim_apply _ bcast_S_S50000x128 _ i ix0 (fun a => a.elim0)]
  show (constant (F := Ideal) S_ .f32 0x3F800000#32 ix0 + shapeCast S_ e shapeCasts_S1_S_ ix0) * x i = _
  rw [constant_apply, shapeCast_apply e shapeCasts_S1_S_ ix0 (ix1 (0 : Fin 1)) (by rewrite [Shape.rowMajor_val_one]; rfl)]

/-- A vector of 128 reshaped to 1 × 128. -/
def rowT (y : S128.Idx → EReal) : S1x128.Idx → EReal := shapeCast S1x128 y shapeCasts_S128_S1x128

theorem rowT_apply (y : S128.Idx → EReal) (q : Fin 128) : rowT y (ix2 (0 : Fin 1) q) = y (ix1 q) := by
  unfold rowT
  exact shapeCast_apply y shapeCasts_S128_S1x128 (ix2 (0 : Fin 1) q) (ix1 q)
    (by rewrite [Shape.rowMajor_val_one, Shape.rowMajor_val_two]; show q.val = 0 * 128 + q.val; omega)

/-! ## What each region finds in its buffers

  `W1`, `W3`, `W5` are the buffers' contents when the first, second and third region are entered; `W2`, `W4` when the
  first and second are left.  A host stretch writes its own results and leaves every other buffer; a region writes its
  result array and leaves every other buffer. -/

section Boundaries

variable (m : (ℓ : Loc nD τ sig) → Buf (Elt Ideal) ℓ) (ρ : Dev nD → PrngReg)

/-! ### Entering the first region -/

theorem W1_v17 (c : Dev nD) :
    W1 m ρ c (Proc.devRef .tc main_v17) = selfT (m ((c : Thread nD τ).loc main_arg0)) (m ((c : Thread nD τ).loc main_arg2)) := by
  show StableHlo.after hostOps0 (W0 m ρ c) (Proc.devRef .tc main_v17) = _
  after_results
  rfl

/-- The neighbour sums are the same gather and scatter-add of the same two arguments as the reference's. -/
theorem W1_v13 (c : Dev nD) :
    W1 m ρ c (Proc.devRef .tc main_v13)
      = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results
  rfl

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_v18 (c : Dev nD) : W1 m ρ c (Proc.devRef .tc main_v18) = rowT (m ((c : Thread nD τ).loc main_arg4)) := by
  show StableHlo.after hostOps0 (W0 m ρ c) (Proc.devRef .tc main_v18) = _
  after_results
  rfl

/-! ### Entering the second region -/

theorem W3_v24 (c : Dev nD) : W3 m ρ c (Proc.devRef .tc main_v24) = W2 m ρ c (Proc.devRef .tc main_v24) := by
  show StableHlo.after hostOps1 (W2 m ρ c) (Proc.devRef .tc main_v24) = _
  after_results

theorem W3_v28 (c : Dev nD) : W3 m ρ c (Proc.devRef .tc main_v28) = meanT (W2 m ρ c (Proc.devRef .tc main_v24)) := by
  show StableHlo.after hostOps1 (W2 m ρ c) (Proc.devRef .tc main_v28) = _
  after_results
  rfl

theorem W3_v35 (c : Dev nD) : W3 m ρ c (Proc.devRef .tc main_v35) = varT (W2 m ρ c (Proc.devRef .tc main_v24)) := by
  show StableHlo.after hostOps1 (W2 m ρ c) (Proc.devRef .tc main_v35) = _
  after_results
  rfl

theorem W3_v19 (c : Dev nD) : W3 m ρ c (Proc.devRef .tc main_v19) = rowT (m ((c : Thread nD τ).loc main_arg5)) := by
  show StableHlo.after hostOps1 (W2 m ρ c) (Proc.devRef .tc main_v19) = _
  after_results
  rw [W2_of_ne m ρ c main_v19 (by decide)]
  show StableHlo.after hostOps0 (W0 m ρ c) (Proc.devRef .tc main_v19) = _
  after_results
  rfl

theorem W3_v20 (c : Dev nD) : W3 m ρ c (Proc.devRef .tc main_v20) = rowT (m ((c : Thread nD τ).loc main_arg6)) := by
  show StableHlo.after hostOps1 (W2 m ρ c) (Proc.devRef .tc main_v20) = _
  after_results
  rw [W2_of_ne m ρ c main_v20 (by decide)]
  show StableHlo.after hostOps0 (W0 m ρ c) (Proc.devRef .tc main_v20) = _
  after_results
  rfl

theorem W3_arg7 (c : Dev nD) : W3 m ρ c (Proc.devRef .tc main_arg7) = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

theorem W3_v21 (c : Dev nD) : W3 m ρ c (Proc.devRef .tc main_v21) = rowT (m ((c : Thread nD τ).loc main_arg8)) := by
  show StableHlo.after hostOps1 (W2 m ρ c) (Proc.devRef .tc main_v21) = _
  after_results
  rw [W2_of_ne m ρ c main_v21 (by decide)]
  show StableHlo.after hostOps0 (W0 m ρ c) (Proc.devRef .tc main_v21) = _
  after_results
  rfl

/-! ### Entering the third region -/

theorem W5_v36 (c : Dev nD) : W5 m ρ c (Proc.devRef .tc main_v36) = W4 m ρ c (Proc.devRef .tc main_v36) := by
  show StableHlo.after hostOps2 (W4 m ρ c) (Proc.devRef .tc main_v36) = _
  after_results

theorem W5_v40 (c : Dev nD) : W5 m ρ c (Proc.devRef .tc main_v40) = meanT (W4 m ρ c (Proc.devRef .tc main_v36)) := by
  show StableHlo.after hostOps2 (W4 m ρ c) (Proc.devRef .tc main_v40) = _
  after_results
  rfl

theorem W5_v47 (c : Dev nD) : W5 m ρ c (Proc.devRef .tc main_v47) = varT (W4 m ρ c (Proc.devRef .tc main_v36)) := by
  show StableHlo.after hostOps2 (W4 m ρ c) (Proc.devRef .tc main_v47) = _
  after_results
  rfl

theorem W5_v22 (c : Dev nD) : W5 m ρ c (Proc.devRef .tc main_v22) = rowT (m ((c : Thread nD τ).loc main_arg9)) := by
  show StableHlo.after hostOps2 (W4 m ρ c) (Proc.devRef .tc main_v22) = _
  after_results
  rw [W4_of_ne m ρ c main_v22 (by decide)]
  show StableHlo.after hostOps1 (W2 m ρ c) (Proc.devRef .tc main_v22) = _
  after_results
  rw [W2_of_ne m ρ c main_v22 (by decide)]
  show StableHlo.after hostOps0 (W0 m ρ c) (Proc.devRef .tc main_v22) = _
  after_results
  rfl

theorem W5_v23 (c : Dev nD) : W5 m ρ c (Proc.devRef .tc main_v23) = rowT (m ((c : Thread nD τ).loc main_arg10)) := by
  show StableHlo.after hostOps2 (W4 m ρ c) (Proc.devRef .tc main_v23) = _
  after_results
  rw [W4_of_ne m ρ c main_v23 (by decide)]
  show StableHlo.after hostOps1 (W2 m ρ c) (Proc.devRef .tc main_v23) = _
  after_results
  rw [W2_of_ne m ρ c main_v23 (by decide)]
  show StableHlo.after hostOps0 (W0 m ρ c) (Proc.devRef .tc main_v23) = _
  after_results
  rfl

end Boundaries

end Cert.KernelIdeal.Host

end
-- ==== Proof.KValue.lean ====
/-
  The kernel program's result, read off its run.

  The run passes six boundaries: a host stretch (the neighbour sums, the scaled self term, the reshaped rows), the first
  region (a dense layer), a host stretch (column statistics of that result), the second region (normalise, clamp, dense
  layer), a host stretch (column statistics again), the third region (normalise, clamp).  Each region's result array is
  one function of the arrays it finds, each host stretch's results are terms of the buffers it finds, and chaining them
  backwards from the last boundary to the launch memory gives the result buffer as `Gin.layer` of the arguments and
  the neighbour sums.
-/
import proofs.«121719_j1486058684700_1_alg».proof.Proof.KRegionA
import proofs.«121719_j1486058684700_1_alg».proof.Proof.KRegionB
import proofs.«121719_j1486058684700_1_alg».proof.Proof.KRegionC
import proofs.«121719_j1486058684700_1_alg».proof.Proof.KHost
import proofs.«121719_j1486058684700_1_alg».proof.Proof.KLaunch

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Cert.KernelIdeal.Host

/-! ## Each region's function at the operands the host stretches hand it -/

/-- A vector reshaped to 1 × 128 and read back column by column is the vector. -/
theorem rowFun (y : S128.Idx → EReal) : (fun j : S128.Idx => rowT y (ix2 (0 : Fin 1) (j 0))) = y :=
  funext fun j => (rowT_apply y (j 0)).trans (congrArg y (eq_ix1 j).symm)

/-- The first region at the scaled self term and the reshaped bias: the dense layer of the combination. -/
theorem stageA (x : S50000x128.Idx → EReal) (e : S1.Idx → EReal) (agg : S50000x128.Idx → EReal)
    (w : S128x128.Idx → EReal) (b : S128.Idx → EReal) :
    RegionA.G (selfT x e) agg w (rowT b) = Gin.dense (Gin.combine x agg (e (ix1 (0 : Fin 1)))) w b :=
  congrArg₂ (fun a b' => Gin.dense a w b')
    (funext fun i => congrArg (· + agg i) (selfT_apply x e i)) (rowFun b)

/-- The third region at the host's column statistics and the reshaped scale and shift: batch normalisation and the
    clamp. -/
theorem stageC (h : S50000x128.Idx → EReal) (g beta : S128.Idx → EReal) :
    RegionC.G h (meanT h) (varT h) (rowT g) (rowT beta) = Gin.bnRelu h g beta :=
  congr (congr (congr (congrArg (Gin.normRelu h) (funext (meanT_apply h))) (funext (varT_apply h))) (rowFun g)) (rowFun beta)

/-- The second region likewise: batch normalisation, the clamp, then the dense layer. -/
theorem stageB (h : S50000x128.Idx → EReal) (g beta : S128.Idx → EReal) (w : S128x128.Idx → EReal) (b : S128.Idx → EReal) :
    RegionB.G h (meanT h) (varT h) (rowT g) (rowT beta) w (rowT b) = Gin.dense (Gin.bnRelu h g beta) w b :=
  congrArg₂ (fun a b' => Gin.dense a w b') (stageC h g beta) (rowFun b)

/-! ## The run's boundaries, chained -/

variable (m : (ℓ : Loc nD τ sig) → Buf (Elt Ideal) ℓ) (ρ : Dev nD → PrngReg)

/-- The first layer's result array, as the first region leaves it. -/
def H1 (c : Dev nD) : S50000x128.Idx → EReal := W2 m ρ c (Proc.devRef .tc main_v24)
/-- The second layer's result array, as the second region leaves it. -/
def H2 (c : Dev nD) : S50000x128.Idx → EReal := W4 m ρ c (Proc.devRef .tc main_v36)

theorem H1_eq (c : Dev nD) :
    H1 m ρ c = Gin.dense
      (Gin.combine (m ((c : Thread nD τ).loc main_arg0))
        (Cert.ReferenceIdeal.Read.val_main_v13 (F := Ideal) (m ((c : Thread nD τ).loc main_arg0)) (m ((c : Thread nD τ).loc main_arg1)))
        (m ((c : Thread nD τ).loc main_arg2) (ix1 (0 : Fin 1))))
      (m ((c : Thread nD τ).loc main_arg3)) (m ((c : Thread nD τ).loc main_arg4)) := by
  unfold H1
  refine (W2_arr m ρ c 4).trans ?_
  refine (RegionA.final (V1 m ρ) c).trans ?_
  show RegionA.G (W1 m ρ c (Proc.devRef .tc main_v17)) (W1 m ρ c (Proc.devRef .tc main_v13))
      (W1 m ρ c (Proc.devRef .tc main_arg3)) (W1 m ρ c (Proc.devRef .tc main_v18)) = _
  rw [W1_v17, W1_v13, W1_arg3, W1_v18]
  exact stageA _ _ _ _ _

theorem H2_eq (c : Dev nD) :
    H2 m ρ c = Gin.dense
      (Gin.bnRelu (H1 m ρ c) (m ((c : Thread nD τ).loc main_arg5)) (m ((c : Thread nD τ).loc main_arg6)))
      (m ((c : Thread nD τ).loc main_arg7)) (m ((c : Thread nD τ).loc main_arg8)) := by
  unfold H2
  refine (W4_arr m ρ c 7).trans ?_
  refine (RegionB.final (V3 m ρ) c).trans ?_
  show RegionB.G (W3 m ρ c (Proc.devRef .tc main_v24)) (W3 m ρ c (Proc.devRef .tc main_v28)) (W3 m ρ c (Proc.devRef .tc main_v35))
      (W3 m ρ c (Proc.devRef .tc main_v19)) (W3 m ρ c (Proc.devRef .tc main_v20)) (W3 m ρ c (Proc.devRef .tc main_arg7))
      (W3 m ρ c (Proc.devRef .tc main_v21)) = _
  rw [W3_v28, W3_v35, W3_v24, W3_v19, W3_v20, W3_arg7, W3_v21]
  exact stageB (H1 m ρ c) _ _ _ _

theorem out_eq (c : Dev nD) :
    W6 m ρ c (Proc.devRef .tc main_v48)
      = Gin.bnRelu (H2 m ρ c) (m ((c : Thread nD τ).loc main_arg9)) (m ((c : Thread nD τ).loc main_arg10)) := by
  refine (W6_arr m ρ c 5).trans ?_
  refine (RegionC.final (V5 m ρ) c).trans ?_
  show RegionC.G (W5 m ρ c (Proc.devRef .tc main_v36)) (W5 m ρ c (Proc.devRef .tc main_v40)) (W5 m ρ c (Proc.devRef .tc main_v47))
      (W5 m ρ c (Proc.devRef .tc main_v22)) (W5 m ρ c (Proc.devRef .tc main_v23)) = _
  rw [W5_v40, W5_v47, W5_v36, W5_v22, W5_v23]
  exact stageC (H2 m ρ c) _ _

/-- The result buffer at the last boundary is the layer of the arguments and the neighbour sums. -/
theorem value (c : Dev nD) :
    W6 m ρ c (Proc.devRef .tc main_v48)
      = Gin.layer (m ((c : Thread nD τ).loc main_arg0))
          (Cert.ReferenceIdeal.Read.val_main_v13 (F := Ideal) (m ((c : Thread nD τ).loc main_arg0)) (m ((c : Thread nD τ).loc main_arg1)))
          (m ((c : Thread nD τ).loc main_arg2) (ix1 (0 : Fin 1)))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [out_eq, H2_eq, H1_eq]
  rfl

/-- Every weakly fair execution of the kernel program terminates without a fault, its result buffer holding the layer of
    the arguments and the neighbour sums, the arguments as launched. -/
theorem run : θ_run defs (onTc (τ := τ) (main (F := Ideal))) ⟨m, fun _ => 0, ρ⟩ (fun r => ∀ c : Dev nD,
      r.2.mem ((c.tc : Thread nD τ).loc main_v48)
        = Gin.layer (m ((c : Thread nD τ).loc main_arg0))
            (Cert.ReferenceIdeal.Read.val_main_v13 (F := Ideal) (m ((c : Thread nD τ).loc main_arg0)) (m ((c : Thread nD τ).loc main_arg1)))
            (m ((c : Thread nD τ).loc main_arg2) (ix1 (0 : Fin 1)))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (value m ρ c), (h c).2⟩) (Cert.KernelIdeal.GenP.run_out (F := Ideal) m ρ)

end Cert.KernelIdeal.Val

end
-- ==== Proof.RStages.lean ====
/-
  The reference's host operations, read stage by stage on the extended reals.

  The reference forms the neighbour sums, then computes

      h0 = (1 + e) · x + aggr,   h1 = relu (norm (h0 · W1 + b1)),   out = relu (norm (h1 · W2 + b2)),

  one array operation at a time.  Each operation's result element is a function of its operands' elements at computed
  indices; chaining these readings, each group of operations is one function of the specification: the combination
  with the neighbour sums, the dense layer, the column mean, the column variance, and the normalisation with its
  clamp.  The neighbour sums themselves stay an unopened term: they are the same term on both sides.
-/
import proofs.«121719_j1486058684700_1_alg».proof.Proof.Gen.ReferenceIdeal.Read
import proofs.«121719_j1486058684700_1_alg».proof.Proof.Spec
import Idealize.ShloMosaic.Lib.ValueIdx
import Idealize.ShloMosaic.PureOps.Ideal.Laws

noncomputable section

namespace Cert.ReferenceIdeal.Stages

open Cert.ReferenceIdeal Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S1, .f32⟩ : BufTy).Contents (Elt Ideal)) (x3 : (⟨S128x128, .f32⟩ : BufTy).Contents (Elt Ideal))
  (x4 x5 x6 : (⟨S128, .f32⟩ : BufTy).Contents (Elt Ideal)) (x7 : (⟨S128x128, .f32⟩ : BufTy).Contents (Elt Ideal))
  (x8 x9 x10 : (⟨S128, .f32⟩ : BufTy).Contents (Elt Ideal))

/-! ## The self term and the neighbour sums -/

/-- The scalar `1 + e`, broadcast over the whole array, times `x`, plus the neighbour sums. -/
theorem s_combine :
    val_main_v19 (F := Ideal) x0 x1 x2
      = Cert.Gin.combine x0 (val_main_v13 (F := Ideal) x0 x1) (x2 (ix1 (0 : Fin 1))) := by
  funext i
  rw [val_main_v19_apply, val_main_v18_apply, val_main_v17_apply, val_main_v16_apply, val_main_v15_apply,
    val_main_v14_apply, val_main_cst_1_apply,
    show idx_main_v16 (idx_main_v17 i) = ix1 (0 : Fin 1) from funext fun a => match a with | ⟨0, _⟩ => rfl]
  rfl

/-! ## The first dense layer and its normalisation -/

/-- The bias row, broadcast over the rows and read at `i`, is the bias at `i`'s column. -/
theorem bias1_at (i : S50000x128.Idx) : val_main_v22 (F := Ideal) x4 i = x4 (ix1 (i 1)) := by
  rw [val_main_v22_apply, val_main_v21_apply]
  exact congrArg x4 (funext fun a => match a with | ⟨0, _⟩ => rfl)

/-- The contraction's left index at `(i, k)` is row `i 0`, column `k`. -/
theorem lidx1 (i : S50000x128.Idx) (k : Fin 128) : lidx_main_v20 i k = ix2 (i 0) k :=
  funext fun a => match a with | ⟨0, _⟩ => rfl | ⟨1, _⟩ => rfl

/-- The contraction's right index at `(i, k)` is row `k`, column `i 1`. -/
theorem ridx1 (i : S50000x128.Idx) (k : Fin 128) : ridx_main_v20 i k = ix2 k (i 1) :=
  funext fun a => match a with | ⟨0, _⟩ => rfl | ⟨1, _⟩ => rfl

/-- The product with the weights plus the bias is the specification's dense layer. -/
theorem s_dense1 : val_main_v23 (F := Ideal) x0 x1 x2 x3 x4 = Cert.Gin.dense (val_main_v19 (F := Ideal) x0 x1 x2) x3 x4 := by
  funext i
  rw [val_main_v23_apply, val_main_v20_apply, bias1_at]
  simp only [lidx1, ridx1, Ideal.addf_def]
  rfl

/-- The column sums run over the index `(k, q)`. -/
theorem sumIdx1a (q : Fin 128) (k : Fin 50000) : idx_main_v24 (ix1 q) k = ix2 k q :=
  funext fun a => match a with | ⟨0, _⟩ => rfl | ⟨1, _⟩ => rfl
theorem sumIdx1b (q : Fin 128) (k : Fin 50000) : idx_main_v31 (ix1 q) k = ix2 k q :=
  funext fun a => match a with | ⟨0, _⟩ => rfl | ⟨1, _⟩ => rfl

/-- The column sum divided by the row count is the specification's column mean. -/
theorem s_mean1 (q : Fin 128) :
    val_main_v26 (F := Ideal) x0 x1 x2 x3 x4 (ix1 q) = Cert.Gin.colMean (val_main_v23 (F := Ideal) x0 x1 x2 x3 x4) q := by
  rw [val_main_v26_apply, val_main_v24_apply, val_main_v25_apply, val_main_cst_3_apply, val_main_cst_2_apply]
  simp only [sumIdx1a, Ideal.hostDivf_def, Ideal.ofBits_def]
  rfl

/-- The mean row broadcast over the rows, read at `(p, q)`, is the mean of column `q`. -/
theorem meanA1_at (p : Fin 50000) (q : Fin 128) :
    val_main_v28 (F := Ideal) x0 x1 x2 x3 x4 (ix2 p q) = Cert.Gin.colMean (val_main_v23 (F := Ideal) x0 x1 x2 x3 x4) q := by
  rw [val_main_v28_apply, val_main_v27_apply, ← s_mean1]
  exact congrArg (val_main_v26 (F := Ideal) x0 x1 x2 x3 x4) (funext fun a => match a with | ⟨0, _⟩ => rfl)

/-- The deviation from the column mean at `(p, q)`. -/
theorem dev1_at (p : Fin 50000) (q : Fin 128) :
    val_main_v29 (F := Ideal) x0 x1 x2 x3 x4 (ix2 p q)
      = ((val_main_v23 (F := Ideal) x0 x1 x2 x3 x4) : Cert.Gin.Feat) (ix2 p q) - Cert.Gin.colMean (val_main_v23 (F := Ideal) x0 x1 x2 x3 x4) q := by
  rw [val_main_v29_apply, meanA1_at]
  rfl

/-- The mean of the squared deviations is the specification's column variance. -/
theorem s_var1 (q : Fin 128) :
    val_main_v33 (F := Ideal) x0 x1 x2 x3 x4 (ix1 q) = Cert.Gin.colVar (val_main_v23 (F := Ideal) x0 x1 x2 x3 x4) (Cert.Gin.colMean (val_main_v23 (F := Ideal) x0 x1 x2 x3 x4)) q := by
  rw [val_main_v33_apply, val_main_v31_apply, val_main_v32_apply, val_main_cst_5_apply, val_main_cst_4_apply]
  simp only [sumIdx1b, val_main_v30_apply, dev1_at, Ideal.hostDivf_def, Ideal.ofBits_def, Ideal.mulf_def]
  rfl

/-- The second broadcast of the mean row, read at `(p, q)`, is the mean of column `q`. -/
theorem meanB1_at (p : Fin 50000) (q : Fin 128) :
    val_main_v35 (F := Ideal) x0 x1 x2 x3 x4 (ix2 p q) = Cert.Gin.colMean (val_main_v23 (F := Ideal) x0 x1 x2 x3 x4) q := by
  rw [val_main_v35_apply, val_main_v34_apply, ← s_mean1]
  exact congrArg (val_main_v26 (F := Ideal) x0 x1 x2 x3 x4) (funext fun a => match a with | ⟨0, _⟩ => rfl)

/-- The reciprocal square root of the variance plus the small word, broadcast and read at `(p, q)`. -/
theorem rstd1_at (p : Fin 50000) (q : Fin 128) :
    val_main_v41 (F := Ideal) x0 x1 x2 x3 x4 (ix2 p q)
      = Ideal.rsqrt (Cert.Gin.colVar (val_main_v23 (F := Ideal) x0 x1 x2 x3 x4) (Cert.Gin.colMean (val_main_v23 (F := Ideal) x0 x1 x2 x3 x4)) q + Cert.Gin.epsW) := by
  rw [val_main_v41_apply, val_main_v40_apply,
    show idx_main_v40 (idx_main_v41 (ix2 p q)) = ix1 q from funext fun a => match a with | ⟨0, _⟩ => rfl,
    val_main_v39_apply, val_main_v38_apply, s_var1, val_main_v37_apply, val_main_cst_6_apply]
  rfl

/-- The scale row, broadcast over the rows and read at `(p, q)`. -/
theorem scale1_at (p : Fin 50000) (q : Fin 128) : val_main_v44 (F := Ideal) x5 (ix2 p q) = x5 (ix1 q) := by
  rw [val_main_v44_apply, val_main_v43_apply]
  exact congrArg x5 (funext fun a => match a with | ⟨0, _⟩ => rfl)

/-- The shift row, broadcast over the rows and read at `(p, q)`. -/
theorem shift1_at (p : Fin 50000) (q : Fin 128) : val_main_v47 (F := Ideal) x6 (ix2 p q) = x6 (ix1 q) := by
  rw [val_main_v47_apply, val_main_v46_apply]
  exact congrArg x6 (funext fun a => match a with | ⟨0, _⟩ => rfl)

/-- The clamp's zero array, read anywhere, is the zero word. -/
theorem zero1_at (i : S50000x128.Idx) : val_main_call0_v0 (F := Ideal) i = Cert.Gin.zeroW := by
  rw [val_main_call0_v0_apply, val_main_call0_cst_apply]
  rfl

/-- Normalise, scale, shift and clamp: the specification's batch normalisation with the clamp. -/
theorem s_bn1 : val_main_v49 (F := Ideal) x0 x1 x2 x3 x4 x5 x6 = Cert.Gin.bnRelu (val_main_v23 (F := Ideal) x0 x1 x2 x3 x4) x5 x6 := by
  funext i
  obtain ⟨p, q, rfl⟩ : ∃ (p : Fin 50000) (q : Fin 128), i = ix2 p q := ⟨i 0, i 1, eq_ix2 i⟩
  rw [val_main_v49_apply, val_main_v48_apply, val_main_v45_apply, val_main_v42_apply, val_main_v36_apply, meanB1_at, rstd1_at,
    scale1_at, shift1_at, zero1_at]
  rfl

/-! ## The second dense layer and its normalisation -/

/-- The bias row, broadcast over the rows and read at `i`, is the bias at `i`'s column. -/
theorem bias2_at (i : S50000x128.Idx) : val_main_v52 (F := Ideal) x8 i = x8 (ix1 (i 1)) := by
  rw [val_main_v52_apply, val_main_v51_apply]
  exact congrArg x8 (funext fun a => match a with | ⟨0, _⟩ => rfl)

/-- The contraction's left index at `(i, k)` is row `i 0`, column `k`. -/
theorem lidx2 (i : S50000x128.Idx) (k : Fin 128) : lidx_main_v50 i k = ix2 (i 0) k :=
  funext fun a => match a with | ⟨0, _⟩ => rfl | ⟨1, _⟩ => rfl

/-- The contraction's right index at `(i, k)` is row `k`, column `i 1`. -/
theorem ridx2 (i : S50000x128.Idx) (k : Fin 128) : ridx_main_v50 i k = ix2 k (i 1) :=
  funext fun a => match a with | ⟨0, _⟩ => rfl | ⟨1, _⟩ => rfl

/-- The product with the weights plus the bias is the specification's dense layer. -/
theorem s_dense2 : val_main_v53 (F := Ideal) x0 x1 x2 x3 x4 x5 x6 x7 x8 = Cert.Gin.dense (val_main_v49 (F := Ideal) x0 x1 x2 x3 x4 x5 x6) x7 x8 := by
  funext i
  rw [val_main_v53_apply, val_main_v50_apply, bias2_at]
  simp only [lidx2, ridx2, Ideal.addf_def]
  rfl

/-- The column sums run over the index `(k, q)`. -/
theorem sumIdx2a (q : Fin 128) (k : Fin 50000) : idx_main_v54 (ix1 q) k = ix2 k q :=
  funext fun a => match a with | ⟨0, _⟩ => rfl | ⟨1, _⟩ => rfl
theorem sumIdx2b (q : Fin 128) (k : Fin 50000) : idx_main_v61 (ix1 q) k = ix2 k q :=
  funext fun a => match a with | ⟨0, _⟩ => rfl | ⟨1, _⟩ => rfl

/-- The column sum divided by the row count is the specification's column mean. -/
theorem s_mean2 (q : Fin 128) :
    val_main_v56 (F := Ideal) x0 x1 x2 x3 x4 x5 x6 x7 x8 (ix1 q) = Cert.Gin.colMean (val_main_v53 (F := Ideal) x0 x1 x2 x3 x4 x5 x6 x7 x8) q := by
  rw [val_main_v56_apply, val_main_v54_apply, val_main_v55_apply, val_main_cst_8_apply, val_main_cst_7_apply]
  simp only [sumIdx2a, Ideal.hostDivf_def, Ideal.ofBits_def]
  rfl

/-- The mean row broadcast over the rows, read at `(p, q)`, is the mean of column `q`. -/
theorem meanA2_at (p : Fin 50000) (q : Fin 128) :
    val_main_v58 (F := Ideal) x0 x1 x2 x3 x4 x5 x6 x7 x8 (ix2 p q) = Cert.Gin.colMean (val_main_v53 (F := Ideal) x0 x1 x2 x3 x4 x5 x6 x7 x8) q := by
  rw [val_main_v58_apply, val_main_v57_apply, ← s_mean2]
  exact congrArg (val_main_v56 (F := Ideal) x0 x1 x2 x3 x4 x5 x6 x7 x8) (funext fun a => match a with | ⟨0, _⟩ => rfl)

/-- The deviation from the column mean at `(p, q)`. -/
theorem dev2_at (p : Fin 50000) (q : Fin 128) :
    val_main_v59 (F := Ideal) x0 x1 x2 x3 x4 x5 x6 x7 x8 (ix2 p q)
      = ((val_main_v53 (F := Ideal) x0 x1 x2 x3 x4 x5 x6 x7 x8) : Cert.Gin.Feat) (ix2 p q) - Cert.Gin.colMean (val_main_v53 (F := Ideal) x0 x1 x2 x3 x4 x5 x6 x7 x8) q := by
  rw [val_main_v59_apply, meanA2_at]
  rfl

/-- The mean of the squared deviations is the specification's column variance. -/
theorem s_var2 (q : Fin 128) :
    val_main_v63 (F := Ideal) x0 x1 x2 x3 x4 x5 x6 x7 x8 (ix1 q) = Cert.Gin.colVar (val_main_v53 (F := Ideal) x0 x1 x2 x3 x4 x5 x6 x7 x8) (Cert.Gin.colMean (val_main_v53 (F := Ideal) x0 x1 x2 x3 x4 x5 x6 x7 x8)) q := by
  rw [val_main_v63_apply, val_main_v61_apply, val_main_v62_apply, val_main_cst_10_apply, val_main_cst_9_apply]
  simp only [sumIdx2b, val_main_v60_apply, dev2_at, Ideal.hostDivf_def, Ideal.ofBits_def, Ideal.mulf_def]
  rfl

/-- The second broadcast of the mean row, read at `(p, q)`, is the mean of column `q`. -/
theorem meanB2_at (p : Fin 50000) (q : Fin 128) :
    val_main_v65 (F := Ideal) x0 x1 x2 x3 x4 x5 x6 x7 x8 (ix2 p q) = Cert.Gin.colMean (val_main_v53 (F := Ideal) x0 x1 x2 x3 x4 x5 x6 x7 x8) q := by
  rw [val_main_v65_apply, val_main_v64_apply, ← s_mean2]
  exact congrArg (val_main_v56 (F := Ideal) x0 x1 x2 x3 x4 x5 x6 x7 x8) (funext fun a => match a with | ⟨0, _⟩ => rfl)

/-- The reciprocal square root of the variance plus the small word, broadcast and read at `(p, q)`. -/
theorem rstd2_at (p : Fin 50000) (q : Fin 128) :
    val_main_v71 (F := Ideal) x0 x1 x2 x3 x4 x5 x6 x7 x8 (ix2 p q)
      = Ideal.rsqrt (Cert.Gin.colVar (val_main_v53 (F := Ideal) x0 x1 x2 x3 x4 x5 x6 x7 x8) (Cert.Gin.colMean (val_main_v53 (F := Ideal) x0 x1 x2 x3 x4 x5 x6 x7 x8)) q + Cert.Gin.epsW) := by
  rw [val_main_v71_apply, val_main_v70_apply,
    show idx_main_v70 (idx_main_v71 (ix2 p q)) = ix1 q from funext fun a => match a with | ⟨0, _⟩ => rfl,
    val_main_v69_apply, val_main_v68_apply, s_var2, val_main_v67_apply, val_main_cst_11_apply]
  rfl

/-- The scale row, broadcast over the rows and read at `(p, q)`. -/
theorem scale2_at (p : Fin 50000) (q : Fin 128) : val_main_v74 (F := Ideal) x9 (ix2 p q) = x9 (ix1 q) := by
  rw [val_main_v74_apply, val_main_v73_apply]
  exact congrArg x9 (funext fun a => match a with | ⟨0, _⟩ => rfl)

/-- The shift row, broadcast over the rows and read at `(p, q)`. -/
theorem shift2_at (p : Fin 50000) (q : Fin 128) : val_main_v77 (F := Ideal) x10 (ix2 p q) = x10 (ix1 q) := by
  rw [val_main_v77_apply, val_main_v76_apply]
  exact congrArg x10 (funext fun a => match a with | ⟨0, _⟩ => rfl)

/-- The clamp's zero array, read anywhere, is the zero word. -/
theorem zero2_at (i : S50000x128.Idx) : val_main_call1_v0 (F := Ideal) i = Cert.Gin.zeroW := by
  rw [val_main_call1_v0_apply, val_main_call1_cst_apply]
  rfl

/-- Normalise, scale, shift and clamp: the specification's batch normalisation with the clamp. -/
theorem s_bn2 : val_main_v79 (F := Ideal) x0 x1 x2 x3 x4 x5 x6 x7 x8 x9 x10 = Cert.Gin.bnRelu (val_main_v53 (F := Ideal) x0 x1 x2 x3 x4 x5 x6 x7 x8) x9 x10 := by
  funext i
  obtain ⟨p, q, rfl⟩ : ∃ (p : Fin 50000) (q : Fin 128), i = ix2 p q := ⟨i 0, i 1, eq_ix2 i⟩
  rw [val_main_v79_apply, val_main_v78_apply, val_main_v75_apply, val_main_v72_apply, val_main_v66_apply, meanB2_at, rstd2_at,
    scale2_at, shift2_at, zero2_at]
  rfl

/-! ## The whole layer -/

/-- The reference's result is the specification's layer of `x`, the neighbour sums and `e`. -/
theorem layer_eq (x0 : (⟨S50000x128, .f32⟩ : BufTy).Contents (Elt Ideal)) (x1 : (⟨S2x800000, .i32⟩ : BufTy).Contents (Elt Ideal)) (x2 : (⟨S1, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) :
    val_main_v79 (F := Ideal) x0 x1 x2 x3 x4 x5 x6 x7 x8 x9 x10
      = Cert.Gin.layer x0 (val_main_v13 (F := Ideal) x0 x1) (x2 (ix1 (0 : Fin 1))) x3 x4 x5 x6 x7 x8 x9 x10 := by
  unfold Cert.Gin.layer
  rw [s_bn2, s_dense2, s_bn1, s_dense1, s_combine]

end Cert.ReferenceIdeal.Stages

end
-- ==== Proof.lean ====
/-
  One graph-isomorphism layer, computed by three kernel regions among host operations, against its plain reference.

  Both programs form the neighbour sums by the same gather and scatter-add of the same two arguments, then compute
  relu (norm (relu (norm (((1 + e) · x + sums) · W1 + b1)) · W2 + b2)), `norm` being batch normalisation over the 50000
  rows with the f32 word of 1e-5 under the reciprocal square root.  The kernel program does the two dense layers and the
  two normalisations inside its regions, ten row blocks each, and the column statistics on the host in between; the
  reference does everything on the host.  On the extended reals both results are `Gin.layer` of the arguments and the
  neighbour sums: the kernel's by reading its run boundary by boundary, the reference's by reading its operations stage
  by stage.  No algebraic law is needed beyond the matrix product being the sum over the contracted coordinate on both
  sides, so the precondition is never opened.  The idealisation rewrote nothing, so its ledger is empty.
-/
import proofs.«121719_j1486058684700_1_alg».proof.Defs
import proofs.«121719_j1486058684700_1_alg».proof.Proof.Gen.Kernel
import proofs.«121719_j1486058684700_1_alg».proof.Proof.Gen.Kernel.Skeleton
import proofs.«121719_j1486058684700_1_alg».proof.Proof.Gen.Kernel.Launch
import proofs.«121719_j1486058684700_1_alg».proof.Proof.Gen.Kernel.Points
import proofs.«121719_j1486058684700_1_alg».proof.Proof.Gen.Kernel.Frame
import proofs.«121719_j1486058684700_1_alg».proof.Proof.Gen.KernelIdeal
import proofs.«121719_j1486058684700_1_alg».proof.Proof.Gen.KernelIdeal.Skeleton
import proofs.«121719_j1486058684700_1_alg».proof.Proof.Gen.KernelIdeal.Launch
import proofs.«121719_j1486058684700_1_alg».proof.Proof.Gen.KernelIdeal.Points
import proofs.«121719_j1486058684700_1_alg».proof.Proof.Gen.KernelIdeal.Frame
import proofs.«121719_j1486058684700_1_alg».proof.Proof.Gen.ReferenceIdeal
import proofs.«121719_j1486058684700_1_alg».proof.Proof.Gen.Pre_finite_inputs
import proofs.«121719_j1486058684700_1_alg».proof.Proof.Gen.ReferenceIdeal.Run
import proofs.«121719_j1486058684700_1_alg».proof.Proof.Gen.ReferenceIdeal.Read
import proofs.«121719_j1486058684700_1_alg».proof.Proof.KValue
import proofs.«121719_j1486058684700_1_alg».proof.Proof.RStages
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel :=
  fun m ρ _ => Cert.Kernel.Gen.frame m ρ

/-- So does the idealised kernel program. -/
theorem frame_ki : Cert.frame_KernelIdeal :=
  fun m ρ _ => Cert.KernelIdeal.Gen.frame m ρ

/-- The reference runs and leaves its arguments alone: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories agreeing on the arguments both programs end at the layer of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v79_eq, Cert.ReferenceIdeal.Stages.layer_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
